-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S200000x7 : Shape := ⟨2, ![200000, 7]⟩
abbrev S448x128 : Shape := ⟨2, ![448, 128]⟩
abbrev S128 : Shape := ⟨1, ![128]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S448x128 : S_.BroadcastsInDim S448x128 (![] : Fin 0 → Fin S448x128.rank)
  reducesTo_S448x128_S_d0_1 : S448x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S200000x64 .f32) (main_arg1 : IVec S200000x7 32) (main_arg2 : FVec F S448x128 .f32) (main_arg3 : FVec F S128 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S448x128 .f32 := Host.absf main_arg2
  let main_cst_0 : FVec F S_ .f32 := constant S_ .f32 0x7F800000#32
  let main_v5 : FVec F S448x128 .f32 := broadcastInDim S448x128 ![] bcast_S_S448x128 main_cst_0
  let main_v6 : IVec S448x128 1 := cmpf .olt main_v4 main_v5
  let main_c_1 : IVec S_ 1 := constantI S_ 1 1#1
  let main_v7 : IVec S_ 1 := (fun x v => Host.reduce IntOp.andi x v reducesTo_S448x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S200000x64 : Shape := ⟨2, ![200000, 64]⟩
abbrev S200000x7 : Shape := ⟨2, ![200000, 7]⟩
abbrev S448x128 : Shape := ⟨2, ![448, 128]⟩
abbrev S128 : Shape := ⟨1, ![128]⟩
abbrev S_ : Shape := ⟨0, ![]⟩
abbrev S200000x7x1 : Shape := ⟨3, ![200000, 7, 1]⟩
abbrev S200000x7x64 : Shape := ⟨3, ![200000, 7, 64]⟩
abbrev S200000x448 : Shape := ⟨2, ![200000, 448]⟩
abbrev S200000x128 : Shape := ⟨2, ![200000, 128]⟩
abbrev S2000x448 : Shape := ⟨2, ![2000, 448]⟩
abbrev S2000x128 : Shape := ⟨2, ![2000, 128]⟩
abbrev S1x128 : Shape := ⟨2, ![1, 128]⟩

abbrev nBuf : Space → Nat
  | .hbm => 15
  | .vmem => 6
  | .smem => 0
  | _ => 0

abbrev bufTy : (tb : Table) → Fin (tcTables nBuf tb) → BufTy
  | .hbm, ⟨0, _⟩ => ⟨S200000x64, .f32⟩
  | .hbm, ⟨1, _⟩ => ⟨S200000x7, .i32⟩
  | .hbm, ⟨2, _⟩ => ⟨S448x128, .f32⟩
  | .hbm, ⟨3, _⟩ => ⟨S128, .f32⟩
  | .hbm, ⟨4, _⟩ => ⟨S_, .i32⟩
  | .hbm, ⟨5, _⟩ => ⟨S200000x7, .i32⟩
  | .hbm, ⟨6, _⟩ => ⟨S200000x7, .i1⟩
  | .hbm, ⟨7, _⟩ => ⟨S_, .i32⟩
  | .hbm, ⟨8, _⟩ => ⟨S200000x7, .i32⟩
  | .hbm, ⟨9, _⟩ => ⟨S200000x7, .i32⟩
  | .hbm, ⟨10, _⟩ => ⟨S200000x7, .i32⟩
  | .hbm, ⟨11, _⟩ => ⟨S200000x7x1, .i32⟩
  | .hbm, ⟨12, _⟩ => ⟨S200000x7x64, .f32⟩
  | .hbm, ⟨13, _⟩ => ⟨S200000x448, .f32⟩
  | .hbm, ⟨14, _⟩ => ⟨S200000x128, .f32⟩
  | .local _ .vmem, ⟨0, _⟩ => ⟨S2000x448, .f32⟩
  | .local _ .vmem, ⟨1, _⟩ => ⟨S2000x448, .f32⟩
  | .local _ .vmem, ⟨2, _⟩ => ⟨S448x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S448x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S200000x7 : S_.BroadcastsInDim S200000x7 (![] : Fin 0 → Fin S200000x7.rank)
  bcast_S200000x7_S200000x7x1_0_1 : S200000x7.BroadcastsInDim S200000x7x1 (![0, 1] : Fin 2 → Fin S200000x7x1.rank)
  shapeCasts_S200000x7x64_S200000x448 : S200000x7x64.ShapeCasts S200000x448
  inb_S2000x448_S2000x448_0_0 : ∀ a, (![0, 0] : Fin 2 → Nat) a + S2000x448.size a ≤ S2000x448.size a
  h_S2000x448 : 0 < S2000x448.numel
  shapeCasts_S2000x448_S2000x448 : S2000x448.ShapeCasts S2000x448
  bitsLt_bf16_f32 : FTy.bits .bf16 < FTy.bits .f32
  inb_S448x128_S448x128_0_0 : ∀ a, (![0, 0] : Fin 2 → Nat) a + S448x128.size a ≤ S448x128.size a
  h_S448x128 : 0 < S448x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  gather_S200000x64_S200000x7x1_S200000x7x64_2_0_n_n_0_2_164_wf : GatherDims.WF S200000x64 S200000x7x1 S200000x7x64 [2] [0] [] [0] [] 2 ![1, 64]
  dot_S2000x448_S448x128_S2000x128_1_0_0_1_n_n_wf : DotDims.WF S2000x448 S448x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x448.size a ≤ S200000x448.size a
  hwx0_0 : ∀ i : grid0.Coords, EltTy.bits .f32 = 32 ∨ (Rect.block (s := S200000x448) S2000x448.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S448x128.size a ≤ S448x128.size a
  hwx0_1 : ∀ i : grid0.Coords, EltTy.bits .f32 = 32 ∨ (Rect.block (s := S448x128) S448x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S200000x128.size a
  hwx0_3 : ∀ i : grid0.Coords, EltTy.bits .f32 = 32 ∨ (Rect.block (s := S200000x128) S2000x128.size (cc0_transform_3 i) (hinb0_3 i)).WholeWords (EltTy.packing .f32)

variable [Facts₀]

def gather_S200000x64_S200000x7x1_S200000x7x64_2_0_n_n_0_2_164 : GatherDims S200000x64 S200000x7x1 S200000x7x64 where
  offsetDims := [2]
  collapsedSliceDims := [0]
  operandBatchingDims := []
  startIndicesBatchingDims := []
  startIndexMap := [0]
  indexVectorDim := 2
  sliceSizes := ![1, 64]
  wf := gather_S200000x64_S200000x7x1_S200000x7x64_2_0_n_n_0_2_164_wf
def dot_S2000x448_S448x128_S2000x128_1_0_0_1_n_n : DotDims S2000x448 S448x128 S2000x128 where
  lhsContracting := [1]
  rhsContracting := [0]
  lhsNonContracting := [0]
  rhsNonContracting := [1]
  lhsBatch := []
  rhsBatch := []
  wf := dot_S2000x448_S448x128_S2000x128_1_0_0_1_n_n_wf

abbrev win0_0 : Pipeline.Window sig grid0 :=
  Pipeline.Window.ofSpec (Memref.whole main_v7) S2000x448.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S448x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S200000x64 : Shape := ⟨2, ![200000, 64]⟩
abbrev S200000x7 : Shape := ⟨2, ![200000, 7]⟩
abbrev S448x128 : Shape := ⟨2, ![448, 128]⟩
abbrev S128 : Shape := ⟨1, ![128]⟩
abbrev S_ : Shape := ⟨0, ![]⟩
abbrev S200000x7x1 : Shape := ⟨3, ![200000, 7, 1]⟩
abbrev S200000x7x64 : Shape := ⟨3, ![200000, 7, 64]⟩
abbrev S200000x448 : Shape := ⟨2, ![200000, 448]⟩
abbrev S200000x128 : Shape := ⟨2, ![200000, 128]⟩
abbrev S1x128 : Shape := ⟨2, ![1, 128]⟩

abbrev nBuf : Space → Nat
  | .hbm => 18
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S200000x7, .i32⟩
  | .hbm, ⟨2, _⟩ => ⟨S448x128, .f32⟩
  | .hbm, ⟨3, _⟩ => ⟨S128, .f32⟩
  | .hbm, ⟨4, _⟩ => ⟨S_, .i32⟩
  | .hbm, ⟨5, _⟩ => ⟨S200000x7, .i32⟩
  | .hbm, ⟨6, _⟩ => ⟨S200000x7, .i1⟩
  | .hbm, ⟨7, _⟩ => ⟨S_, .i32⟩
  | .hbm, ⟨8, _⟩ => ⟨S200000x7, .i32⟩
  | .hbm, ⟨9, _⟩ => ⟨S200000x7, .i32⟩
  | .hbm, ⟨10, _⟩ => ⟨S200000x7, .i32⟩
  | .hbm, ⟨11, _⟩ => ⟨S200000x7x1, .i32⟩
  | .hbm, ⟨12, _⟩ => ⟨S200000x7x64, .f32⟩
  | .hbm, ⟨13, _⟩ => ⟨S200000x448, .f32⟩
  | .hbm, ⟨14, _⟩ => ⟨S200000x128, .f32⟩
  | .hbm, ⟨15, _⟩ => ⟨S1x128, .f32⟩
  | .hbm, ⟨16, _⟩ => ⟨S200000x128, .f32⟩
  | .hbm, ⟨17, _⟩ => ⟨S200000x128, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S_S200000x7 : S_.BroadcastsInDim S200000x7 (![] : Fin 0 → Fin S200000x7.rank)
  bcast_S200000x7_S200000x7x1_0_1 : S200000x7.BroadcastsInDim S200000x7x1 (![0, 1] : Fin 2 → Fin S200000x7x1.rank)
  shapeCasts_S200000x7x64_S200000x448 : S200000x7x64.ShapeCasts S200000x448
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  gather_S200000x64_S200000x7x1_S200000x7x64_2_0_n_n_0_2_164_wf : GatherDims.WF S200000x64 S200000x7x1 S200000x7x64 [2] [0] [] [0] [] 2 ![1, 64]
  dot_S200000x448_S448x128_S200000x128_1_0_0_1_n_n_wf : DotDims.WF S200000x448 S448x128 S200000x128 [1] [0] [0] [1] [] []

variable [Facts₀]

def gather_S200000x64_S200000x7x1_S200000x7x64_2_0_n_n_0_2_164 : GatherDims S200000x64 S200000x7x1 S200000x7x64 where
  offsetDims := [2]
  collapsedSliceDims := [0]
  operandBatchingDims := []
  startIndicesBatchingDims := []
  startIndexMap := [0]
  indexVectorDim := 2
  sliceSizes := ![1, 64]
  wf := gather_S200000x64_S200000x7x1_S200000x7x64_2_0_n_n_0_2_164_wf
def dot_S200000x448_S448x128_S200000x128_1_0_0_1_n_n : DotDims S200000x448 S448x128 S200000x128 where
  lhsContracting := [1]
  rhsContracting := [0]
  lhsNonContracting := [0]
  rhsNonContracting := [1]
  lhsBatch := []
  rhsBatch := []
  wf := dot_S200000x448_S448x128_S200000x128_1_0_0_1_n_n_wf

class Facts : Prop extends Facts₀ where

variable [Facts]
-- ==== Proof.Spec.lean ====
/-
  The dense projection of a table of gathered neighbour features, as one function of its three arrays.

  Row `r` of `flat` holds the seven gathered feature rows of node `r`, side by side (448 numbers). The layer's output
  at `(r, s)` is the inner product of that row with column `s` of the weights, plus the bias of unit `s`:
      out[r, s] = (Σ_k flat[r, k] · W[k, s]) + b[s]
  on the extended reals. Both programs compute exactly this; neither regroups the sum, so nothing here needs the
  entries to be finite.
-/
import Idealize.ShloMosaic.PureOps.Ideal
import Idealize.ShloMosaic.Lib.ValueIdx

noncomputable section

open scoped BigOperators
open Idealize.ShloMosaic Idealize.ShloMosaic.ValueIdx

namespace Cert.Projection

/-- `out[r, s] = (Σ_k flat[r, k] · W[k, s]) + b[s]` over all 200000 rows and 128 units. -/
def dense (flat : FVec Ideal ⟨2, ![200000, 448]⟩ .f32) (W : FVec Ideal ⟨2, ![448, 128]⟩ .f32)
    (b : FVec Ideal ⟨1, ![128]⟩ .f32) : FVec Ideal ⟨2, ![200000, 128]⟩ .f32 :=
  fun i => (∑ k : Fin 448, flat (ix2 (i 0) k) * W (ix2 k (i 1))) + b (ix1 (i 1))

/-- The function at the entry with coordinates `(r, s)`. -/
theorem dense_apply (flat : FVec Ideal ⟨2, ![200000, 448]⟩ .f32) (W : FVec Ideal ⟨2, ![448, 128]⟩ .f32)
    (b : FVec Ideal ⟨1, ![128]⟩ .f32) (r : Fin 200000) (s : Fin 128) :
    dense flat W b (ix2 r s) = (∑ k : Fin 448, flat (ix2 r k) * W (ix2 k s)) + b (ix1 s) := rfl

end Cert.Projection

end
-- ==== Proof.RefValue.lean ====
/-
  The reference's result as the dense projection.

  After the gather and the reshape the reference holds the table `flat` of gathered neighbour features; its result
  is `flat @ W + b`: at `(r, s)` the host's contraction reads `flat` at `(r, k)` and `W` at `(k, s)`, and the bias,
  given a unit row axis and repeated over the rows, is read at `s`. The gathered table itself is never opened.
-/
import proofs.«111163_j75557064672009_1_alg».proof.Proof.Gen.ReferenceIdeal.Read
import proofs.«111163_j75557064672009_1_alg».proof.Proof.Spec

noncomputable section

open scoped BigOperators
open Idealize.ShloMosaic Idealize.ShloMosaic.ValueIdx

namespace Cert.ReferenceIdeal.RefValue

open Cert.ReferenceIdeal Cert.ReferenceIdeal.Gen Cert.ReferenceIdeal.Read

variable [Cert.ReferenceIdeal.Facts]

/-- The contraction's left index at output `i` and contracted coordinate `k` is `(i₀, k)`. -/
theorem left_index (i : S200000x128.Idx) (k : Fin 448) : lidx_main_v8 i k = ix2 (i 0) k :=
  funext fun a => by match a with | ⟨0, _⟩ => rfl | ⟨1, _⟩ => rfl

/-- Its right index is `(k, i₁)`. -/
theorem right_index (i : S200000x128.Idx) (k : Fin 448) : ridx_main_v8 i k = ix2 k (i 1) :=
  funext fun a => by match a with | ⟨0, _⟩ => rfl | ⟨1, _⟩ => rfl

/-- The bias is read at the output's column. -/
theorem bias_index (i : S200000x128.Idx) : idx_main_v9 (idx_main_v10 i) = ix1 (i 1) :=
  funext fun a => by match a with | ⟨0, _⟩ => rfl

/-- The reference's last stage is the dense projection of its gathered table. -/
theorem result_eq (x0 : (⟨S200000x64, .f32⟩ : BufTy).Contents (Elt Ideal)) (x1 : (⟨S200000x7, .i32⟩ : BufTy).Contents (Elt Ideal))
    (x2 : (⟨S448x128, .f32⟩ : BufTy).Contents (Elt Ideal)) (x3 : (⟨S128, .f32⟩ : BufTy).Contents (Elt Ideal)) :
    val_main_v11 (F := Ideal) x0 x1 x2 x3 = Cert.Projection.dense (val_main_v7 (F := Ideal) x0 x1) x2 x3 := by
  funext i
  rw [val_main_v11_apply, val_main_v8_apply, val_main_v10_apply, val_main_v9_apply]
  simp only [left_index, right_index, bias_index, Ideal.addf_def]
  rfl

end Cert.ReferenceIdeal.RefValue

end
-- ==== Proof.LibMatmulPlain.lean ====
/-
  A plain matrix product read at one entry, on the extended reals.

  For the dimension numbers of an `[M, K]` by `[K, N]` product (contract the left operand's columns with the right
  operand's rows, no batch axis), the matrix unit's product accumulated into a zero block, and the host's
  `dot_general`, are both, at entry `(r, s)`, the sum over `k` of `lhs[r, k] · rhs[k, s]`: the contraction index
  has one coordinate, and the operand indices at `(r, s)` and `k` are `(r, k)` and `(k, s)`.
-/
import Idealize.ShloMosaic.PureOps.Ideal.Laws
import Idealize.ShloMosaic.Lib.ValueIdx

noncomputable section

open scoped BigOperators
open Idealize.ShloMosaic Idealize.ShloMosaic.ValueIdx

namespace Cert.MatmulPlain

variable {M K N : Nat}

/-- The left operand's index at output `(r, s)` and contraction coordinate `k` is `(r, k)`. -/
theorem lhsIdx_plain (r : Fin M) (s : Fin N) (k : Fin K) :
    (DotDims.plain M K N).lhsIdx (ix2 r s) ((contrEquiv1 (DotDims.plain M K N) K rfl rfl).symm k) = ix2 r k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 r s) _).trans hk

/-- The right operand's index there is `(k, s)`. -/
theorem rhsIdx_plain (r : Fin M) (s : Fin N) (k : Fin K) :
    (DotDims.plain M K N).rhsIdx (ix2 r s) ((contrEquiv1 (DotDims.plain M K N) K rfl rfl).symm k) = ix2 k s := by
  have hk := contrEquiv1_symm_val (DotDims.plain M K N) K rfl rfl k
  funext a
  refine Fin.ext ?_
  match a with
  | ⟨0, _⟩ => exact ((DotDims.plain M K N).rhsIdx_val_of_single rfl (ix2 r s) _).trans hk
  | ⟨1, _⟩ => rfl

/-- The matrix unit's product into a zero accumulator, at entry `(r, s)`: `Σ_k lhs[r, k] · rhs[k, s]`. -/
theorem matmul_zero_apply {φ₁ φ₂ : FTy} (prec : Option ContractPrecision)
    (lhs : FVec Ideal ⟨2, ![M, K]⟩ φ₁) (rhs : FVec Ideal ⟨2, ![K, N]⟩ φ₂) (r : Fin M) (s : Fin N) :
    FloatOps.matmul (DotDims.plain M K N) prec lhs rhs (constant ⟨2, ![M, N]⟩ .f32 0x00000000#32) (ix2 r s)
      = ∑ k : Fin K, lhs (ix2 r k) * rhs (ix2 k s) := by
  rw [Ideal.matmul_constant_zero_apply, ← Equiv.sum_comp (contrEquiv1 (DotDims.plain M K N) K rfl rfl).symm]
  refine Finset.sum_congr rfl fun k _ => ?_
  rw [lhsIdx_plain, rhsIdx_plain]

/-- The host's `dot_general` at entry `(r, s)`: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (s : Fin N) :
    FloatOps.dotGeneral (DotDims.plain M K N) prec sched lhs rhs (ix2 r s)
      = ∑ k : Fin K, lhs (ix2 r k) * rhs (ix2 k s) := by
  rw [Ideal.dotGeneral_apply, ← Equiv.sum_comp (contrEquiv1 (DotDims.plain M K N) K rfl rfl).symm]
  refine Finset.sum_congr rfl fun k _ => ?_
  rw [lhsIdx_plain, rhsIdx_plain]

end Cert.MatmulPlain

end
-- ==== Proof.KernelPayload.lean ====
/-
  What one grid point of the kernel computes, entry by entry.

  The body loads a block `a` of 2000 rows of the gathered table, the whole weight matrix `w` and the bias `v`, narrows
  `a` and `w` to bf16 (on the extended reals a change of format changes nothing), multiplies them on the matrix unit
  into a zero accumulator, and adds the bias, one row of 128 numbers repeated down the 2000 rows. So at `(p, q)` of the
  block the stored value is `(Σ_k a[p, k] · w[k, q]) + v[q]`.
-/
import proofs.«111163_j75557064672009_1_alg».proof.Proof.Gen.KernelIdeal.Skeleton
import proofs.«111163_j75557064672009_1_alg».proof.Proof.LibMatmulPlain
import Idealize.ShloMosaic.Lib.Pipeline.Value
import Idealize.ShloMosaic.Lib.ValueLayout
import Idealize.ShloMosaic.Lib.ValueIdx

noncomputable section

open scoped BigOperators
open Idealize.ShloMosaic Idealize.ShloMosaic.ValueIdx

namespace Cert.KernelIdeal.Payload

open Cert.KernelIdeal Cert.KernelIdeal.Gen

/-- The matrix unit's product of the narrowed block and the narrowed weights, into zero, at `(p, q)`: the plain
    sum of products of the un-narrowed entries. -/
theorem product_apply (a : Vec Ideal S2000x448 .f32) (w : Vec Ideal S448x128 .f32) (p : Fin 2000) (q : Fin 128) :
    matmul (F := Ideal) dot_S2000x448_S448x128_S2000x128_1_0_0_1_n_n none
        (truncf .bf16 (shapeCast S2000x448 a shapeCasts_S2000x448_S2000x448) bitsLt_bf16_f32)
        (truncf .bf16 w bitsLt_bf16_f32) (constant (F := Ideal) S2000x128 .f32 0x00000000#32) (ix2 p q)
      = ∑ k : Fin 448, a (ix2 p k) * w (ix2 k q) := by
  rw [shapeCast_self]
  exact Cert.MatmulPlain.matmul_zero_apply (M := 2000) (K := 448) (N := 128) none
    (truncf .bf16 a bitsLt_bf16_f32) (truncf .bf16 w bitsLt_bf16_f32) p q

/-- The bias, given a unit row axis and repeated down the rows, at `(p, q)`: the bias of unit `q`. -/
theorem bias_apply (v : Vec Ideal S128 .f32) (p : Fin 2000) (q : Fin 128) :
    broadcastTo S2000x128 (shapeCast S1x128 v shapeCasts_S128_S1x128) broadcasts_S1x128_S2000x128 (ix2 p q)
      = v (ix1 q) := by
  rw [broadcastTo_1b_ab_apply, shapeCast_a_1a_apply]

/-- The value the body stores, at `(p, q)` of the block. -/
theorem stored_apply (a : Vec Ideal S2000x448 .f32) (w : Vec Ideal S448x128 .f32) (v : Vec Ideal S128 .f32)
    (p : Fin 2000) (q : Fin 128) :
    k0_pay1 (F := Ideal) a w v (ix2 p q) = (∑ k : Fin 448, a (ix2 p k) * w (ix2 k q)) + v (ix1 q) := by
  unfold k0_pay1
  rw [addf_apply, product_apply, bias_apply]

end Cert.KernelIdeal.Payload

end
-- ==== Proof.KernelValue.lean ====
/-
  The kernel's result array as the dense projection of the gathered table.

  Before the region the host gathers the neighbour rows and lays them side by side: the table `flat`. The region
  walks `flat` in 100 blocks of 2000 rows; at point `t` it holds rows `2000·t … 2000·t + 1999` of `flat`, the whole
  weight matrix and the whole bias, and writes rows `2000·t … 2000·t + 1999` of the result. An entry of that block is
  the inner product of its row of `flat` with its column of the weights, plus its unit's bias, which is the dense
  projection read at the entry's place in the whole array. The 100 blocks tile the 200000 rows, so the whole
  result array is the dense projection.
-/
import proofs.«111163_j75557064672009_1_alg».proof.Proof.Gen.KernelIdeal.Value
import proofs.«111163_j75557064672009_1_alg».proof.Proof.KernelPayload
import proofs.«111163_j75557064672009_1_alg».proof.Proof.Spec
import Idealize.ShloMosaic.Lib.StableHlo.Run

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.KernelValue

open Cert.KernelIdeal Cert.KernelIdeal.Gen Cert.Projection

variable (m : (ℓ : Loc nD τ sig) → Buf (Elt Ideal) ℓ) (ρ : Dev nD → PrngReg)

/-! ## The arrays the region finds, and the blocks a point holds -/

/-- The gathered table as the region finds it, -/
abbrev flatArr (c : Dev nD) : FVec Ideal ⟨2, ![200000, 448]⟩ .f32 := V m c main_v7
/-- the weights, -/
abbrev weightArr (c : Dev nD) : FVec Ideal ⟨2, ![448, 128]⟩ .f32 := V m c main_arg2
/-- and the bias. -/
abbrev biasArr (c : Dev nD) : FVec Ideal ⟨1, ![128]⟩ .f32 := V m c main_arg3
/-- Point `t`'s block of the table, -/
abbrev rowsBlk (c : Dev nD) (t : Fin cfg0.N) : Vec Ideal S2000x448 .f32 := iblk m c 0 t
/-- of the weights, -/
abbrev weightBlk (c : Dev nD) (t : Fin cfg0.N) : Vec Ideal S448x128 .f32 := iblk m c 1 t
/-- and of the bias. -/
abbrev biasBlk (c : Dev nD) (t : Fin cfg0.N) : Vec Ideal S128 .f32 := iblk m c 2 t

theorem zero2 : (![0, 0] : Fin 2 → Nat) = fun _ => 0 := funext fun a => by fin_cases a <;> rfl
theorem zero1 : (![0] : Fin 1 → Nat) = fun _ => 0 := funext fun a => by fin_cases a; rfl

/-- The block indices at point `t`: the table's and the result's row block is `t`; every other block index is 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem point_lt (t : Fin cfg0.N) : t.val < 100 := lt_of_lt_of_eq t.isLt N_0

/-- Row `p` of point `t`'s block of the table is row `2000·t + p` of the table. -/
theorem rowsBlk_apply (c : Dev nD) (t : Fin cfg0.N) (p : Fin 2000) (k : Fin 448) (r : Fin 200000)
    (hr : r.val = t.val * 2000 + p.val) : rowsBlk m c t (ix2 p k) = flatArr m c (ix2 r k) := by
  obtain ⟨e0, e1, -⟩ := index_facts t
  show V m c main_v7 (((cfg0.win 0).blk t).view.emb (ix2 p k)) = V m c main_v7 (ix2 r k)
  refine congrArg _ (funext fun a => Fin.ext ?_)
  match a with
  | ⟨0, _⟩ => show win0_0.index t (0 : Fin 2) * 2000 + 1 * p.val = r.val; omega
  | ⟨1, _⟩ => show win0_0.index t (1 : Fin 2) * 448 + 1 * k.val = k.val; omega

/-- Every point holds the whole weight matrix. -/
theorem weightBlk_apply (c : Dev nD) (t : Fin cfg0.N) (k : Fin 448) (q : Fin 128) :
    weightBlk m c t (ix2 k q) = weightArr m c (ix2 k q) := by
  obtain ⟨-, -, e0, e1, -⟩ := index_facts t
  show V m c main_arg2 (((cfg0.win 1).blk t).view.emb (ix2 k q)) = V m c main_arg2 (ix2 k q)
  refine congrArg _ (funext fun a => Fin.ext ?_)
  match a with
  | ⟨0, _⟩ => show win0_1.index t (0 : Fin 2) * 448 + 1 * k.val = k.val; omega
  | ⟨1, _⟩ => show win0_1.index t (1 : Fin 2) * 128 + 1 * q.val = q.val; omega

/-- Every point holds the whole bias. -/
theorem biasBlk_apply (c : Dev nD) (t : Fin cfg0.N) (q : Fin 128) :
    biasBlk m c t (ix1 q) = biasArr m c (ix1 q) := by
  obtain ⟨-, -, -, -, e0, -⟩ := index_facts t
  show V m c main_arg3 (((cfg0.win 2).blk t).view.emb (ix1 q)) = V m c main_arg3 (ix1 q)
  refine congrArg _ (funext fun a => Fin.ext ?_)
  match a with
  | ⟨0, _⟩ => show win0_2.index t (0 : Fin 1) * 128 + 1 * q.val = q.val; omega

/-! ## What a point writes -/

/-- The value point `t` stores at `j` of its block is the dense projection at the entry `i` of the whole array that
    lies `2000·t` rows further down, in the same column. -/
theorem stored_eq_dense (c : Dev nD) (t : Fin cfg0.N) (j : S2000x128.Idx) (i : S200000x128.Idx)
    (h0 : (i 0).val = t.val * 2000 + (j 0).val) (h1 : (i 1).val = (j 1).val) :
    k0_pay1 (F := Ideal) (rowsBlk m c t) (weightBlk m c t) (biasBlk m c t) j
      = dense (flatArr m c) (weightArr m c) (biasArr m c) i := by
  obtain ⟨p, q, rfl⟩ : ∃ (p : Fin 2000) (q : Fin 128), j = ix2 p q := ⟨j 0, j 1, eq_ix2 j⟩
  obtain ⟨r, s, rfl⟩ : ∃ (r : Fin 200000) (s : Fin 128), i = ix2 r s := ⟨i 0, i 1, eq_ix2 i⟩
  obtain rfl : s = q := Fin.ext h1
  rw [Cert.KernelIdeal.Payload.stored_apply, dense_apply, biasBlk_apply]
  refine congrArg (· + biasArr m c (ix1 s)) (Finset.sum_congr rfl fun k _ => ?_)
  rw [rowsBlk_apply m c t p k r h0, weightBlk_apply]

/-- WHAT POINT `t` WRITES BACK is block `t` of the dense projection of the arrays the region finds. -/
theorem flushed_eq (c : Dev nD) (t : Fin cfg0.N) :
    (dats m 0 c).flushed 3 t
      = ((cfg0.win 3).blk t).view.read (Elt Ideal) (dense (flatArr m c) (weightArr m c) (biasArr m c)) := by
  rw [Cert.KernelIdeal.Value.flushed3]
  unfold out0_3
  rw [View.canon_unit_zero zero2]
  simp only [View.ld_unit_zero (S := S2000x448) zero2, View.ld_unit_zero (S := S448x128) zero2,
    View.ld_unit_zero (S := S128) zero1]
  obtain ⟨-, -, -, -, -, e0, e1⟩ := index_facts t
  funext j
  refine stored_eq_dense m c t j (((cfg0.win 3).blk t).view.emb j) ?_ ?_
  · show win0_3.index t (0 : Fin 2) * 2000 + 1 * (j 0).val = t.val * 2000 + (j 0).val; omega
  · show win0_3.index t (1 : Fin 2) * 128 + 1 * (j 1).val = (j 1).val; omega

/-! ## The blocks tile the result -/

/-- An index of the result is in point `t`'s block iff each coordinate is in the block's range on its axis. -/
theorem mem_blk (t : Fin cfg0.N) (i : S200000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v8).slice (win0_3.rect t)).set ↔ _
  rw [View.set_slice_whole, Rect.mem_set_unit]
  exact Iff.rfl

/-- Row `r` of the result is written by point `r / 2000`. -/
theorem covered (i : S200000x128.Idx) :
    ∃ t : Fin cfg0.N, (cfg0.win 3).flush t = true ∧ i ∈ ((cfg0.win 3).blk t).view.set := by
  have hi0 : (i 0).val < 200000 := (i 0).isLt
  have hi1 : (i 1).val < 128 := (i 1).isLt
  let t : Fin cfg0.N := ⟨(i 0).val / 2000, by rw [show cfg0.N = 100 from N_0]; omega⟩
  obtain ⟨-, -, -, -, -, e0, e1⟩ := index_facts t
  have ht : t.val = (i 0).val / 2000 := rfl
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-! ## The table the host builds before the region -/

/-- The table of gathered neighbour features: a negative index counts from the end of the node list, each node's
    seven neighbour rows are gathered, and the seven rows are laid side by side. -/
def gathered (X : (⟨S200000x64, .f32⟩ : BufTy).Contents (Elt Ideal)) (G : (⟨S200000x7, .i32⟩ : BufTy).Contents (Elt Ideal)) :
    (⟨S200000x448, .f32⟩ : BufTy).Contents (Elt Ideal) :=
  shapeCast _ (Host.gather gather_S200000x64_S200000x7x1_S200000x7x64_2_0_n_n_0_2_164 X
    (broadcastInDim S200000x7x1 ![0, 1] bcast_S200000x7_S200000x7x1_0_1
      (select (cmpi .slt G (broadcastInDim S200000x7 ![] bcast_S_S200000x7 (constantI S_ 32 0#32)))
        (addi G (broadcastInDim S200000x7 ![] bcast_S_S200000x7 (constantI S_ 32 200000#32))) G)))
    shapeCasts_S200000x7x64_S200000x448

/-- The region finds the table built from the launched features and neighbour lists. -/
theorem flatArr_eq (c : Dev nD) :
    flatArr m c = gathered (m ((c : Thread nD τ).loc main_arg0)) (m ((c : Thread nD τ).loc main_arg1)) := by
  show (V m c main_v7 : S200000x448.Idx → EReal) = _
  unfold gathered
  dsimp only [Gen.V, Gen.hostOps0]
  after_results
  rfl

/-! ## The result array, and the run -/

/-- After the region the result array is the dense projection of the gathered table, the launched weights and the
    launched bias. -/
theorem result_eq (c : Dev nD) :
    (dats m 0 c).arrAt 3 cfg0.N
      = dense (gathered (m ((c : Thread nD τ).loc main_arg0)) (m ((c : Thread nD τ).loc main_arg1)))
          (m ((c : Thread nD τ).loc main_arg2)) (m ((c : Thread nD τ).loc main_arg3)) := by
  rw [← flatArr_eq m c, ← V_main_arg2 m c, ← V_main_arg3 m c]
  exact (dats m 0 c).arrAt_eq_of_cover 3 (dense (flatArr m c) (weightArr m c) (biasArr m c))
    (fun t _ => flushed_eq m c t) covered

/-- Every weakly fair execution of the kernel's program terminates with the result array at the dense projection
    and the arguments unchanged. -/
theorem run : θ_run defs (onTc (τ := τ) (main (F := Ideal))) ⟨m, fun _ => 0, ρ⟩ fun r => ∀ c : Dev nD,
      r.2.mem ((c : Thread nD τ).loc main_v8)
        = dense (gathered (m ((c : Thread nD τ).loc main_arg0)) (m ((c : Thread nD τ).loc main_arg1)))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_eq m c), (h c).2⟩)
    (Cert.KernelIdeal.Value.run_blocks m ρ)

end Cert.KernelIdeal.KernelValue

end
-- ==== Proof.lean ====
/-
  A graph-convolution layer: for each of 200000 nodes the feature rows of its seven neighbours are gathered and laid
  side by side (448 numbers a node), and that table is projected to 128 units, `flat · W + b`.

  The kernel and the reference gather and lay out the table with the same host operations. The reference then
  takes one 200000 × 448 by 448 × 128 product and adds the bias. The kernel walks the table in 100 blocks of 2000
  rows; on each it narrows the block and the weights to bf16, multiplies them on the matrix unit into a zero
  accumulator, and adds the bias. On the extended reals the narrowing changes nothing, so at `(r, s)` both give
      (Σ_k flat[r, k] · W[k, s]) + b[s],
  the same sum in the same order: no law beyond that is used, and the inputs' finiteness is never opened.
-/
import proofs.«111163_j75557064672009_1_alg».proof.Defs
import proofs.«111163_j75557064672009_1_alg».proof.Proof.Gen.Kernel
import proofs.«111163_j75557064672009_1_alg».proof.Proof.Gen.Kernel.Skeleton
import proofs.«111163_j75557064672009_1_alg».proof.Proof.Gen.Kernel.Launch
import proofs.«111163_j75557064672009_1_alg».proof.Proof.Gen.Kernel.Points
import proofs.«111163_j75557064672009_1_alg».proof.Proof.Gen.Kernel.Frame
import proofs.«111163_j75557064672009_1_alg».proof.Proof.Gen.KernelIdeal
import proofs.«111163_j75557064672009_1_alg».proof.Proof.Gen.KernelIdeal.Skeleton
import proofs.«111163_j75557064672009_1_alg».proof.Proof.Gen.KernelIdeal.Launch
import proofs.«111163_j75557064672009_1_alg».proof.Proof.Gen.KernelIdeal.Points
import proofs.«111163_j75557064672009_1_alg».proof.Proof.Gen.KernelIdeal.Frame
import proofs.«111163_j75557064672009_1_alg».proof.Proof.Gen.ReferenceIdeal
import proofs.«111163_j75557064672009_1_alg».proof.Proof.Gen.Pre_finite_inputs
import proofs.«111163_j75557064672009_1_alg».proof.Proof.Gen.KernelIdeal.Value
import proofs.«111163_j75557064672009_1_alg».proof.Proof.Gen.ReferenceIdeal.Run
import proofs.«111163_j75557064672009_1_alg».proof.Proof.Gen.ReferenceIdeal.Read
import proofs.«111163_j75557064672009_1_alg».proof.Proof.Spec
import proofs.«111163_j75557064672009_1_alg».proof.Proof.RefValue
import proofs.«111163_j75557064672009_1_alg».proof.Proof.KernelValue
import Idealize.ShloMosaic.Adequacy
import Idealize.ShloMosaic.Init

noncomputable section

namespace Cert.Proof

open Idealize.ShloMosaic Idealize.ShloMosaic.TcCoe Idealize.SL.Sem

/-- The table of gathered neighbour features is built by the same operations in both programs. -/
theorem gathered_eq (X : (⟨Cert.KernelIdeal.S200000x64, .f32⟩ : BufTy).Contents (Elt Ideal))
    (G : (⟨Cert.KernelIdeal.S200000x7, .i32⟩ : BufTy).Contents (Elt Ideal)) :
    Cert.ReferenceIdeal.Read.val_main_v7 (F := Ideal) X G = Cert.KernelIdeal.KernelValue.gathered X G := rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the dense projection of the gathered table, the weights and the
    bias they were launched with; launched with the same arrays, they end with the same result. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq,
    (hagree c).1, (hagree c).2.1, (hagree c).2.2.1, (hagree c).2.2.2, gathered_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
